-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S16384x1 : Shape := ⟨2, ![16384, 1]⟩
abbrev S1024x3 : Shape := ⟨2, ![1024, 3]⟩
abbrev S2048x3 : Shape := ⟨2, ![2048, 3]⟩
abbrev S1024x1 : Shape := ⟨2, ![1024, 1]⟩
abbrev S1024 : Shape := ⟨1, ![1024]⟩
abbrev S2048 : Shape := ⟨1, ![2048]⟩
abbrev S2048x1 : Shape := ⟨2, ![2048, 1]⟩
abbrev S3x2048 : Shape := ⟨2, ![3, 2048]⟩
abbrev S1024x2048 : Shape := ⟨2, ![1024, 2048]⟩
abbrev S1x2048 : Shape := ⟨2, ![1, 2048]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x1, .f32⟩
  | .hbm, ⟨3, _⟩ => ⟨S_, .f32⟩
  | .hbm, ⟨4, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S2048x3, .f32⟩
  | .local _ .vmem, ⟨3, _⟩ => ⟨S2048x3, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  inb_S2048x3_S2048x3_0_0 : ∀ a, (![0, 0] : Fin 2 → Nat) a + S2048x3.size a ≤ S2048x3.size a
  h_S2048x3 : 0 < S2048x3.numel
  reduces_S1024x3_S1024 : S1024x3.Reduces [1] S1024
  shapeCasts_S1024_S1024x1 : S1024.ShapeCasts S1024x1
  reduces_S2048x3_S2048 : S2048x3.Reduces [1] S2048
  shapeCasts_S2048_S2048x1 : S2048.ShapeCasts S2048x1
  transposes_S2048x3_p1_0_S3x2048 : S2048x3.Transposes [1, 0] S3x2048
  transposes_S2048x1_p1_0_S1x2048 : S2048x1.Transposes [1, 0] S1x2048
  broadcasts_S1024x1_S1024x2048 : S1024x1.Broadcasts S1024x2048
  broadcasts_S1x2048_S1024x2048 : S1x2048.Broadcasts S1024x2048
  reduces_S1024x2048_S1024 : S1024x2048.Reduces [1] S1024
  reducesTo_S16384x1_S_d0_1 : S16384x1.ReducesTo [0, 1] S_
  h_S_ : 0 < S_.numel
  dot_S1024x3_S3x2048_S1024x2048_1_0_0_1_n_n_wf : DotDims.WF S1024x3 S3x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S16384x3.size a
  hwx0_1 : ∀ i : grid0.Coords, EltTy.bits .f32 = 32 ∨ (Rect.block (s := S16384x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S16384x16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.NearestDist.lean ====
/-
  Nearest-neighbour distances over the extended reals: the mathematics both programs compute.

  Two clouds of points with three coordinates each, X with N points and Y with M. For a point n of X and a
  point k of Y the distance is taken through the expansion of the square,
      pairDist n k = sqrt (max ((|X n|^2 + |Y k|^2) - 2 * <X n, Y k>) 0),
  every operation the exact one on the extended reals; the nearest-neighbour distance of n is the infimum of
  pairDist n k over k, and the loss is the sum over n of those infima, added to zero.

  A row's infimum can be taken in pieces: the infimum over the columns below a + b is the infimum over the
  columns below a met with the infimum over the next b columns (bounded_iInf_add). Nothing here needs the
  entries to be finite: only that the meet is the greatest lower bound and that sums may be re-indexed along a
  bijection.
-/
import Idealize.ShloMosaic.PureOps.Ideal.Laws
import Idealize.ShloMosaic.Lib.ValueIdx
import Idealize.ShloMosaic.Lib.ValueIdxRank1

noncomputable section

namespace Cert.NearestDist

open Idealize.ShloMosaic Idealize.ShloMosaic.ValueIdx

/-- A cloud of N points, three coordinates each, as an array of extended reals. -/
abbrev Cloud (N : Nat) := (⟨2, ![N, 3]⟩ : Shape).Idx → EReal

/-- The squared length of point n: the sum of its three squared coordinates. -/
def sqNorm {N : Nat} (X : Cloud N) (n : Fin N) : EReal := ∑ d : Fin 3, X (ix2 n d) * X (ix2 n d)

/-- The inner product of point n of X with point k of Y. -/
def pointInner {N M : Nat} (X : Cloud N) (Y : Cloud M) (n : Fin N) (k : Fin M) : EReal :=
  ∑ d : Fin 3, X (ix2 n d) * Y (ix2 k d)

/-- The distance between point n of X and point k of Y, through the expanded square, clamped at zero before the
    root. The literals are the words both programs print: 2.0 and +0.0. -/
def pairDist {N M : Nat} (X : Cloud N) (Y : Cloud M) (n : Fin N) (k : Fin M) : EReal :=
  Ideal.sqrt (max ((sqNorm X n + sqNorm Y k) - Ideal.ofBits .f32 0x40000000#32 * pointInner X Y n k)
    (Ideal.ofBits .f32 0x00000000#32))

/-- The distance from point n of X to the nearest point of Y. -/
def nearest {N M : Nat} (X : Cloud N) (Y : Cloud M) (n : Fin N) : EReal := ⨅ k : Fin M, pairDist X Y n k

/-- The loss: zero plus the sum over the points of X of their nearest-neighbour distances. -/
def loss {N M : Nat} (X : Cloud N) (Y : Cloud M) : EReal :=
  Ideal.ofBits .f32 0x00000000#32 + ∑ n : Fin N, nearest X Y n

/-- The word of positive infinity denotes the top of the extended reals: the identity of the meet. -/
theorem ofBits_posInf : Ideal.ofBits .f32 0x7F800000#32 = (⊤ : EReal) := by
  simp [Ideal.ofBits, Ideal.ieee]

/-- A fold of the minimum from the top over all of a finite range is the infimum over the range. -/
theorem fold_min_top {n : Nat} (f : Fin n → EReal) :
    (Finset.univ : Finset (Fin n)).fold min (⊤ : EReal) f = ⨅ k : Fin n, f k := by
  rw [← Finset.inf_univ_eq_iInf]
  rfl

/-- Below zero columns there is nothing to meet: the empty infimum is the top. -/
theorem bounded_iInf_zero {N : Nat} (f : Fin N → EReal) : (⨅ k : Fin N, ⨅ _ : k.val < 0, f k) = ⊤ := by
  simp

/-- Below all N columns the bound says nothing. -/
theorem bounded_iInf_all {N : Nat} (f : Fin N → EReal) : (⨅ k : Fin N, ⨅ _ : k.val < N, f k) = ⨅ k : Fin N, f k :=
  iInf_congr fun k => iInf_pos k.isLt

/-- The infimum over the columns below a + b is the infimum over those below a met with the infimum over the
    next b columns. -/
theorem bounded_iInf_add {N : Nat} (f : Fin N → EReal) (a b : Nat) (hab : a + b ≤ N) :
    (⨅ k : Fin N, ⨅ _ : k.val < a + b, f k)
      = (⨅ k : Fin N, ⨅ _ : k.val < a, f k) ⊓ ⨅ k' : Fin b, f ⟨a + k'.val, by have := k'.isLt; omega⟩ := by
  apply le_antisymm
  · refine le_inf (le_iInf₂ fun k hk => iInf₂_le k (by omega)) (le_iInf fun k' => ?_)
    have hk' := k'.isLt
    exact iInf₂_le (⟨a + k'.val, by omega⟩ : Fin N) (by show a + k'.val < a + b; omega)
  · refine le_iInf₂ fun k hk => ?_
    by_cases h : k.val < a
    · exact inf_le_left.trans (iInf₂_le k h)
    · refine inf_le_right.trans ((iInf_le _ (⟨k.val - a, by omega⟩ : Fin b)).trans (le_of_eq ?_))
      exact congrArg f (Fin.ext (by show a + (k.val - a) = k.val; omega))

/-- A sum over the indices of a column of N entries is the sum over its N rows. -/
theorem sum_column {N : Nat} (g : Fin N → EReal) :
    ∑ i : (⟨2, ![N, 1]⟩ : Shape).Idx, g (i 0) = ∑ n : Fin N, g n := by
  rw [sum_idx2]
  refine Finset.sum_congr rfl fun n _ => ?_
  rw [Fin.sum_univ_one]
  rfl

/-- A sum over the indices of a vector of N entries is the sum over its N positions. -/
theorem sum_vector {N : Nat} (g : Fin N → EReal) :
    ∑ i : (⟨1, ![N]⟩ : Shape).Idx, g (i 0) = ∑ n : Fin N, g n :=
  (Equiv.sum_comp (idxEquiv1 (n := N)) g)

end Cert.NearestDist

end
-- ==== Proof.ReferenceValue.lean ====
/-
  The reference computes the loss.

  Read one operation at a time, the reference's value at the pair (n, k) is the distance between point n of the
  first cloud and point k of the second: its two sums of squares start from zero, which adds nothing, its product
  of the two clouds contracts the coordinate axis, and its root is the same root. Its reduction by the minimum
  along k, started from positive infinity, is the infimum over k, the nearest-neighbour distance of n; and its
  last sum, started from zero, runs over all n.
-/
import proofs.«160825_j14233521619089_1_alg».proof.Proof.Gen.ReferenceIdeal.Read
import proofs.«160825_j14233521619089_1_alg».proof.Proof.NearestDist
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.NearestDist

/-- The row of the first cloud that the pair (n, k) reads for its squared length: row n. -/
theorem row_sq_first (n k : Fin 16384) (d : Fin 3) :
    idx_main_v1 (idx_main_v5 (idx_main_v7 (ix2 n k))) d = ix2 n d :=
  funext fun a => Fin.ext (by match a with | ⟨0, _⟩ => rfl | ⟨1, _⟩ => rfl)

/-- The row of the second cloud that the pair (n, k) reads for its squared length: row k. -/
theorem row_sq_second (n k : Fin 16384) (d : Fin 3) :
    idx_main_v3 (idx_main_v6 (idx_main_v8 (ix2 n k))) d = ix2 k d :=
  funext fun a => Fin.ext (by match a with | ⟨0, _⟩ => rfl | ⟨1, _⟩ => rfl)

/-- The product of the two clouds at (n, k) reads row n of the first -/
theorem row_inner_first (n k : Fin 16384) (d : Fin 3) : lidx_main_v4 (ix2 n k) d = ix2 n d :=
  funext fun a => Fin.ext (by match a with | ⟨0, _⟩ => rfl | ⟨1, _⟩ => rfl)

/-- and row k of the second. -/
theorem row_inner_second (n k : Fin 16384) (d : Fin 3) : ridx_main_v4 (ix2 n k) d = ix2 k d :=
  funext fun a => Fin.ext (by match a with | ⟨0, _⟩ => rfl | ⟨1, _⟩ => rfl)

/-- The reference's rooted, clamped, expanded square at the pair (n, k) is the distance between the two points. -/
theorem dist_stage (A B : Cloud 16384) (n k : Fin 16384) :
    val_main_v15 (F := Ideal) A B (ix2 n k) = pairDist A B n k := by
  rw [val_main_v15_apply, val_main_v14_apply, val_main_v12_apply, val_main_v13_apply, val_main_cst_2_apply,
    val_main_v9_apply, val_main_v11_apply, val_main_v10_apply, val_main_cst_1_apply, val_main_v4_apply,
    val_main_v7_apply, val_main_v8_apply, val_main_v5_apply, val_main_v6_apply, val_main_v1_apply,
    val_main_v3_apply, val_main_cst_apply, val_main_cst_0_apply]
  unfold pairDist sqNorm pointInner
  simp only [val_main_v0_apply, val_main_v2_apply, row_sq_first, row_sq_second, row_inner_first, row_inner_second,
    Ideal.hostUnary_sqrt_def, Ideal.maximumf_def, Ideal.subf_def, Ideal.addf_def, Ideal.mulf_def, Ideal.ofBits_def,
    Ideal.ofBits_zero_f32, zero_add]

/-- The column index the reduction along k inserts into the row index n is the pair (n, k). -/
theorem lift_row (h : S16384x16384.Reduces [1] S16384) (n k : Fin 16384) : h.lift (ix1 n) k = ix2 n k :=
  funext fun a => Fin.ext (by match a with | ⟨0, _⟩ => rfl | ⟨1, _⟩ => rfl)

/-- The reference's minimum along k, from positive infinity, is the nearest-neighbour distance of point n. -/
theorem nearest_stage (A B : Cloud 16384) (n : Fin 16384) :
    val_main_v16 (F := Ideal) A B (ix1 n) = nearest A B n := by
  unfold val_main_v16
  have h : S16384x16384.Reduces [1] S16384 := by decide
  rw [Host.reduce_eq_fold_single FloatOps.minimumf _ _ reducesTo_S16384x16384_S16384_d1 h h_S_ (ix1 n)]
  rw [val_main_cst_3_apply]
  have hf : (val_main_v15 (F := Ideal) A B ∘ h.lift (ix1 n)) = fun k : Fin 16384 => pairDist A B n k :=
    funext fun k => (congrArg (val_main_v15 (F := Ideal) A B) (lift_row h n k)).trans (dist_stage A B n k)
  rw [hf]
  show (Finset.univ : Finset (Fin 16384)).fold min (Ideal.ofBits .f32 0x7F800000#32) (fun k => pairDist A B n k) = _
  rw [ofBits_posInf, fold_min_top]
  rfl

/-- The reference's result, at its one index, is the loss. -/
theorem loss_stage (A B : Cloud 16384) :
    val_main_v17 (F := Ideal) A B = fun _ => loss A B := by
  funext i
  rw [val_main_v17_apply, val_main_cst_4_apply]
  unfold loss
  refine congrArg (_ + ·) ?_
  rw [← sum_vector (fun n => nearest A B n)]
  refine Finset.sum_congr rfl fun j _ => ?_
  exact (congrArg (val_main_v16 (F := Ideal) A B) (eq_ix1 j)).trans (nearest_stage A B (j 0))

end Cert.ReferenceIdeal.RefValue

end
-- ==== Proof.KernelCases.lean ====
/-
  What one step of the kernel leaves behind, case by case.

  At every grid point the kernel holds a block of 1024 points of the first cloud, a block of 2048 points of the
  second, and a column of 1024 running minima. One step replaces the column by its entrywise minimum with the
  block pair's row minima: the step function. The three cases differ only in what the column held before:

    first column block of a row block   the column is first reset to positive infinity, then stepped;
    an inner column block               the column left by the point before is stepped;
    last column block                   the same, and the stepped column is also copied to the output block.

  So in every case the column ends at the step function of the two blocks and of the column it started from, and
  in the last case the output block holds that same column.
-/
import proofs.«160825_j14233521619089_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- Offsets of a whole block: both zero. -/
theorem hz : (![0, 0] : Fin 2 → Nat) = fun _ => 0 := funext fun a => by fin_cases a <;> rfl

/-- First column block: the running minima end at one step from the column of positive infinities. -/
theorem scratch_first (c : Dev nD) (i : grid0.Coords) (arg2 : Memref sig .tc .vmem S1024x3 .f32) (harg2 : arg2.IsWhole)
    (arg3 : Memref sig .tc .vmem S2048x3 .f32) (harg3 : arg3.IsWhole) (arg4 : Memref sig .tc .vmem S1024x1 .f32) (harg4 : arg4.IsWhole)
    (arg5 : Memref sig .tc .vmem S1024x1 .f32) (harg5 : arg5.IsWhole) (hc0 : cond0_0 i) (hc1 : ¬cond0_1 i)
    (x0 : Vec F S1024x3 .f32) (x1 : Vec F S2048x3 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, View.ld_unit_zero (S := S1024x3) hz, View.ld_unit_zero (S := S2048x3) hz, View.ld_unit_zero (S := S1024x1) hz]

/-- An inner column block: the running minima end at one step from what the point before left. -/
theorem scratch_inner (c : Dev nD) (i : grid0.Coords) (arg2 : Memref sig .tc .vmem S1024x3 .f32) (harg2 : arg2.IsWhole)
    (arg3 : Memref sig .tc .vmem S2048x3 .f32) (harg3 : arg3.IsWhole) (arg4 : Memref sig .tc .vmem S1024x1 .f32) (harg4 : arg4.IsWhole)
    (arg5 : Memref sig .tc .vmem S1024x1 .f32) (harg5 : arg5.IsWhole) (hc0 : ¬cond0_0 i) (hc1 : ¬cond0_1 i)
    (x0 : Vec F S1024x3 .f32) (x1 : Vec F S2048x3 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg4.read_unread, harg5.read_unread, View.ld_unit_zero (S := S1024x3) hz, View.ld_unit_zero (S := S2048x3) hz, View.ld_unit_zero (S := S1024x1) hz]

/-- Last column block: the running minima end at one step from what the point before left, -/
theorem scratch_last (c : Dev nD) (i : grid0.Coords) (arg2 : Memref sig .tc .vmem S1024x3 .f32) (harg2 : arg2.IsWhole)
    (arg3 : Memref sig .tc .vmem S2048x3 .f32) (harg3 : arg3.IsWhole) (arg4 : Memref sig .tc .vmem S1024x1 .f32) (harg4 : arg4.IsWhole)
    (arg5 : Memref sig .tc .vmem S1024x1 .f32) (harg5 : arg5.IsWhole) (hc0 : ¬cond0_0 i) (hc1 : cond0_1 i)
    (x0 : Vec F S1024x3 .f32) (x1 : Vec F S2048x3 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg4.read_unread, harg5.read_unread, View.ld_unit_zero (S := S1024x3) hz, View.ld_unit_zero (S := S2048x3) hz, View.ld_unit_zero (S := S1024x1) hz]

/-- and the output block holds that same column: it is the running minima read back after the step. -/
theorem out_last (c : Dev nD) (i : grid0.Coords) (arg2 : Memref sig .tc .vmem S1024x3 .f32) (harg2 : arg2.IsWhole)
    (arg3 : Memref sig .tc .vmem S2048x3 .f32) (harg3 : arg3.IsWhole) (arg4 : Memref sig .tc .vmem S1024x1 .f32) (harg4 : arg4.IsWhole)
    (arg5 : Memref sig .tc .vmem S1024x1 .f32) (harg5 : arg5.IsWhole) (hc0 : ¬cond0_0 i) (hc1 : cond0_1 i)
    (x0 : Vec F S1024x3 .f32) (x1 : Vec F S2048x3 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg4.read_unread, harg5.read_unread, View.ld_unit_zero (S := S1024x3) hz, View.ld_unit_zero (S := S2048x3) hz, View.ld_unit_zero (S := S1024x1) hz, View.readCov_unit_zero (S := S1024x1) _ hz]

end Cert.KernelIdeal.KValue

end
-- ==== Proof.LibKeepdims.lean ====
/-
  Reductions that keep their axis, read at an index.

  jnp's keepdims=True leaves a reduced axis in place with extent one: a row reduction of an [a, b] array comes
  out as a column [a, 1], and meets other arrays by being spread back over b columns. Three facts, at any
  extents:

    an [a] vector cast to a column [a, 1] holds, in row r, the vector's entry r;
    a column [a, 1] broadcast to [a, b] holds, at (p, c), the column's entry of row p;
    over the extended reals a minimum-reduction along one axis is, at each kept index, the fold of the minimum
      from the starting value over that axis's coordinates, in any order (the minimum commutes and associates).
-/
import Idealize.ShloMosaic.PureOps.Ideal.Laws
import Idealize.ShloMosaic.Lib.Pipeline.Value
import Idealize.ShloMosaic.Lib.ValueIdx

namespace Cert.Keepdims

open Idealize.ShloMosaic Idealize.ShloMosaic.ValueIdx

variable {α : Type}

/-- An [a] array cast to a column [a, 1] reads, at (r, u), the operand at r, whatever the unit coordinate u. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float minimum-reduction over ONE axis, read over the extended reals: at each kept index, the fold of the
    minimum from the starting value over that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

end Cert.Keepdims
-- ==== Proof.KernelStep.lean ====
/-
  One step of the kernel, read at a row.

  The step function takes a block of 1024 points of the first cloud, a block of 2048 points of the second and a
  column of 1024 running minima. For row r it forms, against every one of the 2048 points, the squared length of
  its own point plus the squared length of the other minus twice their inner product, clamps at zero and takes
  the root: the distance between the two points. The squared lengths are lane sums of three squares, the inner
  product is one entry of the product of the first block with the transposed second, summed over the three
  coordinates into a zero accumulator. The row's minimum over the 2048 columns, started from positive infinity,
  is the infimum of those distances, and the step returns its minimum with the row's running value.
-/
import proofs.«160825_j14233521619089_1_alg».proof.Proof.Gen.KernelIdeal.Skeleton
import proofs.«160825_j14233521619089_1_alg».proof.Proof.NearestDist
import proofs.«160825_j14233521619089_1_alg».proof.Proof.LibKeepdims
import Idealize.ShloMosaic.Lib.ValueLayout

noncomputable section

namespace Cert.KernelIdeal.KStep

open Cert.KernelIdeal Cert.KernelIdeal.Gen Idealize.ShloMosaic Idealize.ShloMosaic.ValueIdx Cert.NearestDist Cert.Keepdims

variable {F : FTy → Type} [FloatOps F]

/-- The distances of a block pair: the array the kernel reduces along its columns. -/
def tileDist (x0 : Vec F S1024x3 .f32) (x1 : Vec F S2048x3 .f32) : FVec F S1024x2048 .f32 :=
  sqrt (maximumf
    (subf
      (addf
        (broadcastTo S1024x2048 (shapeCast S1024x1 (multiReduction .add [1] S1024 (mulf x0 x0) 0x00000000#32 reduces_S1024x3_S1024 (.inl rfl) rfl) shapeCasts_S1024_S1024x1) broadcasts_S1024x1_S1024x2048)
        (broadcastTo S1024x2048 (transpose S1x2048 [1, 0] (shapeCast S2048x1 (multiReduction .add [1] S2048 (mulf x1 x1) 0x00000000#32 reduces_S2048x3_S2048 (.inl rfl) rfl) shapeCasts_S2048_S2048x1) transposes_S2048x1_p1_0_S1x2048) broadcasts_S1x2048_S1024x2048))
      (mulf (broadcast S1024x2048 (Scalar.ofBits .f32 0x40000000#32))
        (matmul dot_S1024x3_S3x2048_S1024x2048_1_0_0_1_n_n none x0 (transpose S3x2048 [1, 0] x1 transposes_S2048x3_p1_0_S3x2048) (constant S1024x2048 .f32 0x00000000#32))))
    (broadcast S1024x2048 (Scalar.ofBits .f32 0x00000000#32)))

/-- The step function is the entrywise minimum of the running column with the column of the block pair's row
    minima. -/
theorem step_eq (x0 : Vec F S1024x3 .f32) (x1 : Vec F S2048x3 .f32) (acc : Vec F S1024x1 .f32) :
    k0_pay2 x0 x1 acc
      = minimumf acc (shapeCast S1024x1 (multiReduction .minimumf [1] S1024 (tileDist x0 x1) 0x7F800000#32 reduces_S1024x2048_S1024 (.inl rfl) rfl) shapeCasts_S1024_S1024x1) := by
  unfold k0_pay2 tileDist
  exact shapeCast_self _ _

/-- The reset column holds positive infinity in every row. -/
theorem reset_apply (y : S1024x1.Idx) : k0_pay1 (F := Ideal) y = (⊤ : EReal) := by
  unfold k0_pay1
  rw [shapeCast_self]
  exact ofBits_posInf

/-- The column a lane sum inserts into row r is the pair (r, d): first block; -/
theorem lift_first (r : Fin 1024) (d : Fin 3) : reduces_S1024x3_S1024.lift (ix1 r) d = ix2 r d :=
  funext fun a => Fin.ext (by match a with | ⟨0, _⟩ => rfl | ⟨1, _⟩ => rfl)

/-- second block; -/
theorem lift_second (k : Fin 2048) (d : Fin 3) : reduces_S2048x3_S2048.lift (ix1 k) d = ix2 k d :=
  funext fun a => Fin.ext (by match a with | ⟨0, _⟩ => rfl | ⟨1, _⟩ => rfl)

/-- and the block pair's distances. -/
theorem lift_pair (r : Fin 1024) (k : Fin 2048) : reduces_S1024x2048_S1024.lift (ix1 r) k = ix2 r k :=
  funext fun a => Fin.ext (by match a with | ⟨0, _⟩ => rfl | ⟨1, _⟩ => rfl)

/-- The first block's squared lengths, spread over the columns: at (r, k) the squared length of point r. -/
theorem rowSq_apply (x0 : FVec Ideal S1024x3 .f32) (r : Fin 1024) (k : Fin 2048) :
    broadcastTo S1024x2048 (shapeCast S1024x1 (multiReduction (F := Ideal) .add [1] S1024 (mulf x0 x0) 0x00000000#32 reduces_S1024x3_S1024 (.inl rfl) rfl) shapeCasts_S1024_S1024x1) broadcasts_S1024x1_S1024x2048 (ix2 r k)
      = sqNorm x0 r := by
  rw [broadcastTo_a1_ab_apply, shapeCast_a_a1_apply]
  refine (Ideal.multiReduction_add_single (mulf x0 x0) 0x00000000#32 reduces_S1024x3_S1024 (.inl rfl) rfl (ix1 r)).trans ?_
  unfold sqNorm
  show ∑ d : Fin 3, (mulf x0 x0) (reduces_S1024x3_S1024.lift (ix1 r) d) = _
  refine Finset.sum_congr rfl fun d _ => ?_
  rw [lift_first]
  rfl

/-- The second block's squared lengths, turned into a row and spread over the rows: at (r, k) the squared length
    of point k. -/
theorem colSq_apply (x1 : FVec Ideal S2048x3 .f32) (r : Fin 1024) (k : Fin 2048) :
    broadcastTo S1024x2048 (transpose S1x2048 [1, 0] (shapeCast S2048x1 (multiReduction (F := Ideal) .add [1] S2048 (mulf x1 x1) 0x00000000#32 reduces_S2048x3_S2048 (.inl rfl) rfl) shapeCasts_S2048_S2048x1) transposes_S2048x1_p1_0_S1x2048) broadcasts_S1x2048_S1024x2048 (ix2 r k)
      = sqNorm x1 k := by
  rw [broadcastTo_1b_ab_apply, transpose_ix2_apply, shapeCast_a_a1_apply]
  refine (Ideal.multiReduction_add_single (mulf x1 x1) 0x00000000#32 reduces_S2048x3_S2048 (.inl rfl) rfl (ix1 k)).trans ?_
  unfold sqNorm
  show ∑ d : Fin 3, (mulf x1 x1) (reduces_S2048x3_S2048.lift (ix1 k) d) = _
  refine Finset.sum_congr rfl fun d _ => ?_
  rw [lift_second]
  rfl

/-- The product's left operand at output (r, k) is read in row r -/
theorem lhs_row (i : S1024x2048.Idx) (q : dot_S1024x3_S3x2048_S1024x2048_1_0_0_1_n_n.contr.Idx) :
    (dot_S1024x3_S3x2048_S1024x2048_1_0_0_1_n_n.lhsIdx i q 0).val = (i 0).val := by
  unfold DotDims.lhsIdx
  rw [dif_neg (show ¬(0 : Fin S1024x3.rank) ∈ dot_S1024x3_S3x2048_S1024x2048_1_0_0_1_n_n.lhsBatch by decide), dif_pos (show (0 : Fin S1024x3.rank) ∈ dot_S1024x3_S3x2048_S1024x2048_1_0_0_1_n_n.lhsNonContracting by decide)]
  rfl
/-- at the contracted coordinate; -/
theorem lhs_coord (i : S1024x2048.Idx) (q : dot_S1024x3_S3x2048_S1024x2048_1_0_0_1_n_n.contr.Idx) :
    (dot_S1024x3_S3x2048_S1024x2048_1_0_0_1_n_n.lhsIdx i q 1).val = (q ⟨0, by decide⟩).val :=
  dot_S1024x3_S3x2048_S1024x2048_1_0_0_1_n_n.lhsIdx_val_of_single rfl i q
/-- the right operand at the contracted coordinate -/
theorem rhs_coord (i : S1024x2048.Idx) (q : dot_S1024x3_S3x2048_S1024x2048_1_0_0_1_n_n.contr.Idx) :
    (dot_S1024x3_S3x2048_S1024x2048_1_0_0_1_n_n.rhsIdx i q 0).val = (q ⟨0, by decide⟩).val :=
  dot_S1024x3_S3x2048_S1024x2048_1_0_0_1_n_n.rhsIdx_val_of_single rfl i q
/-- in column k. -/
theorem rhs_col (i : S1024x2048.Idx) (q : dot_S1024x3_S3x2048_S1024x2048_1_0_0_1_n_n.contr.Idx) :
    (dot_S1024x3_S3x2048_S1024x2048_1_0_0_1_n_n.rhsIdx i q 1).val = (i 1).val := by
  unfold DotDims.rhsIdx
  rw [dif_neg (show ¬(1 : Fin S3x2048.rank) ∈ dot_S1024x3_S3x2048_S1024x2048_1_0_0_1_n_n.rhsBatch by decide), dif_pos (show (1 : Fin S3x2048.rank) ∈ dot_S1024x3_S3x2048_S1024x2048_1_0_0_1_n_n.rhsNonContracting by decide)]
  rfl

/-- The product of the first block with the transposed second, into zero: at (r, k) the inner product of point r
    with point k. -/
theorem cross_apply (x0 : FVec Ideal S1024x3 .f32) (x1 : FVec Ideal S2048x3 .f32) (r : Fin 1024) (k : Fin 2048) :
    matmul (F := Ideal) dot_S1024x3_S3x2048_S1024x2048_1_0_0_1_n_n none x0 (transpose S3x2048 [1, 0] x1 transposes_S2048x3_p1_0_S3x2048) (constant S1024x2048 .f32 0x00000000#32) (ix2 r k)
      = pointInner x0 x1 r k := by
  refine (Ideal.matmul_constant_zero_apply dot_S1024x3_S3x2048_S1024x2048_1_0_0_1_n_n none x0 (transpose S3x2048 [1, 0] x1 transposes_S2048x3_p1_0_S3x2048) (ix2 r k)).trans ?_
  rw [← Equiv.sum_comp (contrEquiv1 dot_S1024x3_S3x2048_S1024x2048_1_0_0_1_n_n 3 rfl rfl).symm]
  unfold pointInner
  refine Finset.sum_congr rfl fun d _ => ?_
  have hd := contrEquiv1_symm_val dot_S1024x3_S3x2048_S1024x2048_1_0_0_1_n_n 3 rfl rfl d
  have el : dot_S1024x3_S3x2048_S1024x2048_1_0_0_1_n_n.lhsIdx (ix2 r k) ((contrEquiv1 dot_S1024x3_S3x2048_S1024x2048_1_0_0_1_n_n 3 rfl rfl).symm d) = ix2 r d := funext fun a => Fin.ext (by
    match a with
    | ⟨0, _⟩ => exact lhs_row _ _
    | ⟨1, _⟩ => exact (lhs_coord _ _).trans hd)
  have er : dot_S1024x3_S3x2048_S1024x2048_1_0_0_1_n_n.rhsIdx (ix2 r k) ((contrEquiv1 dot_S1024x3_S3x2048_S1024x2048_1_0_0_1_n_n 3 rfl rfl).symm d) = ix2 d k := funext fun a => Fin.ext (by
    match a with
    | ⟨0, _⟩ => exact (rhs_coord _ _).trans hd
    | ⟨1, _⟩ => exact rhs_col _ _)
  rw [el, er, transpose_ix2_apply]

/-- The block pair's array at (r, k) is the distance between point r of the first block and point k of the
    second. -/
theorem tileDist_apply (x0 : FVec Ideal S1024x3 .f32) (x1 : FVec Ideal S2048x3 .f32) (r : Fin 1024) (k : Fin 2048) :
    tileDist (F := Ideal) x0 x1 (ix2 r k) = pairDist x0 x1 r k := by
  unfold tileDist pairDist
  show Ideal.sqrt (max ((broadcastTo S1024x2048 _ broadcasts_S1024x1_S1024x2048 (ix2 r k) + broadcastTo S1024x2048 _ broadcasts_S1x2048_S1024x2048 (ix2 r k))
      - (Ideal.ofBits .f32 0x40000000#32 * matmul (F := Ideal) dot_S1024x3_S3x2048_S1024x2048_1_0_0_1_n_n none x0 _ _ (ix2 r k))) (Ideal.ofBits .f32 0x00000000#32)) = _
  rw [rowSq_apply, colSq_apply, cross_apply]

/-- One step at row r: the minimum of the running value with the infimum, over the second block's points, of
    the distance from point r of the first block. -/
theorem step_apply (x0 : FVec Ideal S1024x3 .f32) (x1 : FVec Ideal S2048x3 .f32) (acc : FVec Ideal S1024x1 .f32) (r : Fin 1024) :
    k0_pay2 (F := Ideal) x0 x1 acc (ix2 r 0) = min (acc (ix2 r 0)) (⨅ k : Fin 2048, pairDist x0 x1 r k) := by
  rw [step_eq]
  show min (acc (ix2 r 0)) (shapeCast S1024x1 _ shapeCasts_S1024_S1024x1 (ix2 r (0 : Fin 1))) = _
  refine congrArg (min (acc (ix2 r 0))) ?_
  rw [shapeCast_a_a1_apply]
  refine (multiReduction_minimumf_single (tileDist (F := Ideal) x0 x1) 0x7F800000#32 reduces_S1024x2048_S1024 (.inl rfl) rfl (ix1 r)).trans ?_
  have hf : (tileDist (F := Ideal) x0 x1 ∘ reduces_S1024x2048_S1024.lift (ix1 r)) = fun k : Fin 2048 => pairDist x0 x1 r k :=
    funext fun k => (congrArg (tileDist (F := Ideal) x0 x1) (lift_pair r k)).trans (tileDist_apply x0 x1 r k)
  rw [hf]
  show (Finset.univ : Finset (Fin 2048)).fold min (Ideal.ofBits .f32 0x7F800000#32) (fun k => pairDist x0 x1 r k) = _
  rw [ofBits_posInf, fold_min_top]

end Cert.KernelIdeal.KStep

end
-- ==== Proof.KernelRun.lean ====
/-
  What the kernel's run leaves in the result.

  The grid has 16 row blocks of 1024 points of the first cloud and, inside each, 8 column blocks of 2048 points
  of the second; point t of the run is row block t / 8 and column block t % 8. A column of 1024 running minima
  is carried from point to point. By induction on the point: after point t, row r of the column holds the
  infimum, over the columns below 2048 * (t % 8 + 1), of the distance from point 1024 * (t / 8) + r of the first
  cloud. It is reset to the empty infimum at the first column block of a row block and met with one more block
  of 2048 columns at every point. At the last column block the bound is all 16384 columns, the column is the
  nearest-neighbour distances of the row block, and it is what the output block receives and what is written
  back to rows 1024 * (t / 8) ... of the result column. The sixteen write-backs cover the result column, so it
  ends holding every point's nearest-neighbour distance; the sum that follows the kernel adds them to zero: the
  loss.
-/
import proofs.«160825_j14233521619089_1_alg».proof.Proof.KernelCases
import proofs.«160825_j14233521619089_1_alg».proof.Proof.KernelStep
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

open Cert.KernelIdeal.KStep Cert.NearestDist Idealize.ShloMosaic.ValueIdx

variable (m : (ℓ : Loc nD τ sig) → Buf (Elt Ideal) ℓ) (ρ : Dev nD → PrngReg)

/-- The two clouds as the launch finds them. -/
abbrev cloudA (c : Dev nD) : Cloud 16384 := m ((c : Thread nD τ).loc main_arg0)
abbrev cloudB (c : Dev nD) : Cloud 16384 := m ((c : Thread nD τ).loc main_arg1)

/-- The blocks of the two clouds the kernel holds at point t. -/
abbrev blkA (c : Dev nD) (t : Fin cfg0.N) : FVec Ideal S1024x3 .f32 := iblk m c 0 t
abbrev blkB (c : Dev nD) (t : Fin cfg0.N) : FVec Ideal S2048x3 .f32 := iblk m c 1 t

theorem points : cfg0.N = 128 := N_0

/-- Point t reads row block t / 8 of the first cloud, -/
theorem idxA : ∀ t : Fin cfg0.N, win0_0.index t 0 = t.val / 8 ∧ win0_0.index t 1 = 0 :=
  (by decide +kernel : ∀ t : Fin grid0.N, win0_0.index t 0 = t.val / 8 ∧ win0_0.index t 1 = 0)
/-- column block t % 8 of the second, -/
theorem idxB : ∀ t : Fin cfg0.N, win0_1.index t 0 = t.val % 8 ∧ win0_1.index t 1 = 0 :=
  (by decide +kernel : ∀ t : Fin grid0.N, win0_1.index t 0 = t.val % 8 ∧ win0_1.index t 1 = 0)
/-- and writes row block t / 8 of the result column. -/
theorem idxO : ∀ t : Fin cfg0.N, win0_2.index t 0 = t.val / 8 ∧ win0_2.index t 1 = 0 :=
  (by decide +kernel : ∀ t : Fin grid0.N, win0_2.index t 0 = t.val / 8 ∧ win0_2.index t 1 = 0)

/-- The point of the first cloud in row r of point t's row block. -/
def rowOf (t : Fin cfg0.N) (r : Fin 1024) : Fin 16384 :=
  ⟨1024 * (t.val / 8) + r.val, by have h : t.val < 128 := lt_of_lt_of_eq t.isLt points; have := r.isLt; omega⟩

/-- The point of the second cloud in column k of point t's column block. -/
def colOf (t : Fin cfg0.N) (k : Fin 2048) : Fin 16384 :=
  ⟨2048 * (t.val % 8) + k.val, by have := k.isLt; omega⟩

/-- Row r, coordinate d of the first block at point t is that point of the first cloud; -/
theorem blkA_apply (c : Dev nD) (t : Fin cfg0.N) (r : Fin 1024) (d : Fin 3) :
    blkA m c t (ix2 r d) = cloudA m c (ix2 (rowOf t r) d) := by
  have hi := idxA t
  show ((cfg0.win 0).blk t).view.read (Elt Ideal) (V m c (Pipeline.arrRef spec0 0)) (ix2 r d) = _
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 1024 + 1 * r.val = 1024 * (t.val / 8) + r.val; rw [hi.1]; omega
  | ⟨1, _⟩ => show win0_0.index t 1 * 3 + 1 * d.val = d.val; rw [hi.2]; omega

/-- the same for the second block. -/
theorem blkB_apply (c : Dev nD) (t : Fin cfg0.N) (k : Fin 2048) (d : Fin 3) :
    blkB m c t (ix2 k d) = cloudB m c (ix2 (colOf t k) d) := by
  have hi := idxB t
  show ((cfg0.win 1).blk t).view.read (Elt Ideal) (V m c (Pipeline.arrRef spec0 1)) (ix2 k d) = _
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 2048 + 1 * k.val = 2048 * (t.val % 8) + k.val; rw [hi.1]; omega
  | ⟨1, _⟩ => show win0_1.index t 1 * 3 + 1 * d.val = d.val; rw [hi.2]; omega

/-- So a distance inside the block pair is the distance between the two points of the clouds. -/
theorem blockDist (c : Dev nD) (t : Fin cfg0.N) (r : Fin 1024) (k : Fin 2048) :
    pairDist (blkA m c t) (blkB m c t) r k = pairDist (cloudA m c) (cloudB m c) (rowOf t r) (colOf t k) := by
  unfold pairDist sqNorm pointInner
  simp only [blkA_apply, blkB_apply]

/-- The infimum, over the columns below cnt, of the distance from row r of point t's row block. -/
def below (c : Dev nD) (t : Fin cfg0.N) (r : Fin 1024) (cnt : ℕ) : EReal :=
  ⨅ k : Fin 16384, ⨅ _ : k.val < cnt, pairDist (cloudA m c) (cloudB m c) (rowOf t r) k

/-- One step at point t: a column that held the infima below 2048 * (t % 8) holds those below
    2048 * (t % 8 + 1). -/
theorem step_below (c : Dev nD) (t : Fin cfg0.N) (prev : FVec Ideal S1024x1 .f32) (r : Fin 1024)
    (hprev : prev (ix2 r 0) = below m c t r (2048 * (t.val % 8))) :
    k0_pay2 (F := Ideal) (blkA m c t) (blkB m c t) prev (ix2 r 0) = below m c t r (2048 * (t.val % 8 + 1)) := by
  refine (step_apply (blkA m c t) (blkB m c t) prev r).trans ?_
  rw [hprev]
  unfold below
  rw [Nat.mul_succ, bounded_iInf_add _ (2048 * (t.val % 8)) 2048 (by omega)]
  refine congrArg (_ ⊓ ·) (iInf_congr fun k => ?_)
  exact blockDist m c t r k

/-- THE RUNNING MINIMA: after point n, row r of the carried column holds the infimum over the columns below
    2048 * (n % 8 + 1). -/
theorem running (c : Dev nD) : ∀ (n : ℕ) (h : n < cfg0.N) (r : Fin 1024),
    (outsAt0 m c n h).2 (ix2 r 0) = below m c ⟨n, h⟩ r (2048 * (n % 8 + 1)) := by
  intro n
  induction n with
  | zero =>
    intro h r
    have h0 : (⟨0, h⟩ : Fin cfg0.N).val % 8 = 0 := rfl
    have h1 : ¬(⟨0, h⟩ : Fin cfg0.N).val % 8 = 7 := by show ¬(0 : ℕ) % 8 = 7; decide
    rw [outsAt0_A m c ⟨0, h⟩ h0 h1]
    dsimp only
    refine (congrFun (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩)) (ix2 r 0)).trans ?_
    refine step_below m c ⟨0, h⟩ (k0_pay1 (F := Ideal)) r ?_
    rw [reset_apply]
    show (⊤ : EReal) = below m c ⟨0, h⟩ r (2048 * (0 % 8))
    unfold below
    rw [Nat.zero_mod, Nat.mul_zero, bounded_iInf_zero]
  | succ n ih =>
    intro h r
    have hlt : n + 1 < 128 := lt_of_lt_of_eq h points
    by_cases h0 : (n + 1) % 8 = 0
    · have h1 : ¬(n + 1) % 8 = 7 := by omega
      rw [outsAt0_A m c ⟨n + 1, h⟩ h0 h1]
      dsimp only
      refine (congrFun (scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩)) (ix2 r 0)).trans ?_
      refine step_below m c ⟨n + 1, h⟩ (k0_pay1 (F := Ideal)) r ?_
      rw [reset_apply]
      show (⊤ : EReal) = below m c ⟨n + 1, h⟩ r (2048 * ((n + 1) % 8))
      unfold below
      rw [h0, Nat.mul_zero, bounded_iInf_zero]
    · have e1 : n % 8 + 1 = (n + 1) % 8 := by omega
      have e2 : rowOf ⟨n, Nat.lt_of_succ_lt h⟩ r = rowOf ⟨n + 1, h⟩ r :=
        Fin.ext (by show 1024 * (n / 8) + r.val = 1024 * ((n + 1) / 8) + r.val; omega)
      have hp : (outsAt0 m c n (Nat.lt_of_succ_lt h)).2 (ix2 r 0) = below m c ⟨n + 1, h⟩ r (2048 * ((n + 1) % 8)) := by
        rw [ih (Nat.lt_of_succ_lt h) r]
        unfold below
        rw [e1, e2]
      by_cases h1 : (n + 1) % 8 = 7
      · rw [outsAt0_C m c ⟨n + 1, h⟩ h0 h1]
        dsimp only
        refine (congrFun (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2) (ix2 r 0)).trans ?_
        exact step_below m c ⟨n + 1, h⟩ (outsAt0 m c n (Nat.lt_of_succ_lt h)).2 r hp
      · rw [outsAt0_B m c ⟨n + 1, h⟩ h0 h1]
        dsimp only
        refine (congrFun (scratch_inner c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2) (ix2 r 0)).trans ?_
        exact step_below m c ⟨n + 1, h⟩ (outsAt0 m c n (Nat.lt_of_succ_lt h)).2 r hp

/-- At a last column block the output block receives the stepped column, whose bound is all 16384 columns: row r
    holds the nearest-neighbour distance of its point. -/
theorem out_value (c : Dev nD) (t : Fin cfg0.N) (h7 : t.val % 8 = 7) (r : Fin 1024) :
    (outsAt0 m c t.val t.isLt).1 (ix2 r 0) = nearest (cloudA m c) (cloudB m c) (rowOf t r) := by
  have hlt : t.val < 128 := lt_of_lt_of_eq t.isLt points
  have h0 : ¬t.val % 8 = 0 := by omega
  have hpos : t.val - 1 < cfg0.N := Nat.lt_of_le_of_lt (Nat.sub_le _ _) t.isLt
  have e1 : (t.val - 1) % 8 + 1 = t.val % 8 := by omega
  have e2 : rowOf ⟨t.val - 1, hpos⟩ r = rowOf t r :=
    Fin.ext (by show 1024 * ((t.val - 1) / 8) + r.val = 1024 * (t.val / 8) + r.val; omega)
  have hp : (outsAt0 m c (t.val - 1) hpos).2 (ix2 r 0) = below m c t r (2048 * (t.val % 8)) := by
    rw [running m c (t.val - 1) hpos r]
    unfold below
    rw [e1, e2]
  rw [outsAt0_C m c t h0 h7]
  dsimp only
  refine (congrFun (out_last c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h7) (iblk m c 0 t) (iblk m c 1 t) (outsAt0 m c (t.val - 1) hpos).2) (ix2 r 0)).trans ?_
  refine (step_below m c t (outsAt0 m c (t.val - 1) hpos).2 r hp).trans ?_
  unfold below nearest
  rw [h7]
  exact bounded_iInf_all _

/-- The result column: every point's nearest-neighbour distance. -/
def result (c : Dev nD) : Buf (Elt Ideal) ((c : Thread nD τ).loc main_v0) :=
  fun i => nearest (cloudA m c) (cloudB m c) ⟨(i 0).val, idx2_lt0 i⟩

/-- Every block has the full 1024 rows and its one column. -/
theorem blockO : ∀ t : Fin cfg0.N, win0_2.xsize (grid0.coords t) 0 = 1024 ∧ win0_2.xsize (grid0.coords t) 1 = 1 :=
  (by decide +kernel : ∀ t : Fin grid0.N, win0_2.xsize (grid0.coords t) 0 = 1024 ∧ win0_2.xsize (grid0.coords t) 1 = 1)

/-- A write-back, at a last column block, writes the row block's part of the result column. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have hi := idxO t
  show (cfg0.win 2).cut (grid0.coords t) ((dats m 0 c).after 2 t) = _
  rw [after0_2]
  funext y
  rw [View.read_apply]
  obtain ⟨r, u, rfl⟩ : ∃ (r : Fin 1024) (u : Fin 1), y = ix2 r u := ⟨y 0, y 1, eq_ix2 y⟩
  obtain rfl : u = 0 := Subsingleton.elim _ _
  show (outsAt0 m c t.val t.isLt).1 (ix2 r 0) = result m c _
  rw [out_value m c t h7 r]
  unfold result
  refine congrArg (nearest (cloudA m c) (cloudB m c)) (Fin.ext ?_)
  show 1024 * (t.val / 8) + r.val = win0_2.index t 0 * 1024 + 1 * r.val
  rw [hi.1]; omega

/-- The sixteen write-backs cover the result column: row n lies in the block written at the last column block of
    row block n / 1024. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 16384 := (i 0).isLt
  have h1 : (i 1 : Nat) < 1 := (i 1).isLt
  let t : Fin cfg0.N := ⟨8 * ((i 0 : Nat) / 1024) + 7, by rw [points]; omega⟩
  have ht : t.val = 8 * ((i 0 : Nat) / 1024) + 7 := rfl
  refine ⟨t, (flush0_2 t).mpr (by rw [ht]; omega), ?_⟩
  have hi := idxO t
  have hb := blockO t
  show i ∈ ((View.whole main_v0).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [hi.1, hb.1, ht]
    show (8 * ((i 0 : Nat) / 1024) + 7) / 8 * 1024 ≤ (i 0 : Nat) ∧ (i 0 : Nat) < (8 * ((i 0 : Nat) / 1024) + 7) / 8 * 1024 + 1024
    omega
  | ⟨1, _⟩ =>
    show win0_2.index t 1 * win0_2.size 1 ≤ (i 1 : Nat) ∧ (i 1 : Nat) < win0_2.index t 1 * win0_2.size 1 + win0_2.xsize (grid0.coords t) 1
    rw [hi.2, hb.2]
    show 0 * 1 ≤ (i 1 : Nat) ∧ (i 1 : Nat) < 0 * 1 + 1
    omega

/-- So the result column ends holding every point's nearest-neighbour distance. -/
theorem final_out (c : Dev nD) : (dats m 0 c).arrAt 2 cfg0.N = result m c :=
  (dats m 0 c).arrAt_eq_of_cover 2 (result m c) (flushed_eq m c) (covered c)

/-- The sum that follows the kernel, over the result column from zero, is the loss. -/
theorem sum_result (c : Dev nD) :
    Host.reduceAdd (F := Ideal) (result m c) (constant (F := Ideal) S_ .f32 0x00000000#32) reducesTo_S16384x1_S_d0_1 h_S_
      = fun _ => loss (cloudA m c) (cloudB m c) := by
  funext j
  simp only [Host.reduceAdd, Ideal.hostReduceAdd_def]
  rw [Ideal.hostReduceAdd_total reducesTo_S16384x1_S_d0_1 (fun b => b.elim0)]
  unfold loss
  refine congrArg (_ + ·) ?_
  exact sum_column (fun n => nearest (cloudA m c) (cloudB m c) n)

/-- What the lines after the kernel leave in the result scalar. -/
theorem tail_value (c : Dev nD) :
    Pipeline.afterTail₀ cfgs (dats m) 0 (V0 m) [hostOps1] c main_v1 = fun _ => loss (cloudA m c) (cloudB m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c :=
    (Pipeline.withArrays_arr spec0 launch0.win.arr_inj c _ _ 2).trans (final_out m c)
  rw [e]
  exact sum_result m c

/-- THE RUN: every fair execution of the kernel's program ends with the result scalar at the loss of the two clouds
    and the clouds unchanged. -/
theorem run : θ_run defs (onTc (τ := τ) (main (F := Ideal))) ⟨m, fun _ => 0, ρ⟩ fun r => ∀ c : Dev nD,
      r.2.mem ((c.tc : Thread nD τ).loc main_v1) = (fun _ => loss (cloudA m c) (cloudB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (fun w => by fin_cases w <;> decide))).trans (tail_value m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.KValue

end
-- ==== Proof.lean ====
/-
  The nearest-neighbour loss of two clouds of 16384 points: the tiled kernel against the plain reference.

  Both programs compute, over the extended reals, zero plus the sum over the points n of the first cloud of the
  infimum over the points k of the second of sqrt (max ((|a n|^2 + |b k|^2) - 2 * <a n, b k>) 0).

  The reference does it in one piece: squared lengths as sums from zero, the inner products as one product of the
  two clouds, the minimum along k from positive infinity, the sum over n from zero (Proof/ReferenceValue.lean).
  The kernel walks a 16 x 8 grid of blocks, 1024 points of the first cloud against 2048 of the second, carrying a
  column of running minima that is reset to positive infinity at the first column block of each row block,
  stepped at every block, and written to the result column at the last (Proof/KernelCases.lean: what a step
  leaves; Proof/KernelStep.lean: a step at a row; Proof/KernelRun.lean: the induction over the grid, the result
  column, the sum after the kernel). The two agree because an infimum over 16384 columns is the meet of the
  infima over its eight runs of 2048 columns, positive infinity is the meet's identity, a sum from zero is the
  sum, and a sum over a column's indices is the sum over its rows (Proof/NearestDist.lean). None of this uses
  finiteness of the inputs: the precondition is never opened.

  The three programs' runs: the kernel's two are the generated frames; the reference's is its generated run with
  the result dropped. The idealization rewrote nothing, so it has nothing to preserve.
-/
import proofs.«160825_j14233521619089_1_alg».proof.Defs
import proofs.«160825_j14233521619089_1_alg».proof.Proof.Gen.Kernel
import proofs.«160825_j14233521619089_1_alg».proof.Proof.Gen.Kernel.Skeleton
import proofs.«160825_j14233521619089_1_alg».proof.Proof.Gen.Kernel.Launch
import proofs.«160825_j14233521619089_1_alg».proof.Proof.Gen.Kernel.Points
import proofs.«160825_j14233521619089_1_alg».proof.Proof.Gen.Kernel.Frame
import proofs.«160825_j14233521619089_1_alg».proof.Proof.Gen.KernelIdeal
import proofs.«160825_j14233521619089_1_alg».proof.Proof.Gen.KernelIdeal.Skeleton
import proofs.«160825_j14233521619089_1_alg».proof.Proof.Gen.KernelIdeal.Launch
import proofs.«160825_j14233521619089_1_alg».proof.Proof.Gen.KernelIdeal.Points
import proofs.«160825_j14233521619089_1_alg».proof.Proof.Gen.KernelIdeal.Frame
import proofs.«160825_j14233521619089_1_alg».proof.Proof.Gen.ReferenceIdeal
import proofs.«160825_j14233521619089_1_alg».proof.Proof.Gen.Pre_finite_inputs
import proofs.«160825_j14233521619089_1_alg».proof.Proof.Gen.ReferenceIdeal.Run
import proofs.«160825_j14233521619089_1_alg».proof.Proof.Gen.ReferenceIdeal.Read
import proofs.«160825_j14233521619089_1_alg».proof.Proof.ReferenceValue
import proofs.«160825_j14233521619089_1_alg».proof.Proof.KernelRun
import Idealize.ShloMosaic.Adequacy
import Idealize.ShloMosaic.Init

noncomputable section

namespace Cert.Proof

open Idealize.ShloMosaic Idealize.SL.Sem Cert.NearestDist

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two clouds, the kernel's result scalar and the reference's both end at the loss
    of those clouds. -/
theorem algebraic : Cert.algebraic_KernelIdeal_ReferenceIdeal := by
  intro m ρ m' ρ' _ hagree
  refine ⟨fun c => (fun _ => loss (Cert.KernelIdeal.KValue.cloudA m c) (Cert.KernelIdeal.KValue.cloudB m c)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (Cert.ReferenceIdeal.RefValue.loss_stage _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
